-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x64 : Shape := ⟨2, ![50000, 64]⟩
abbrev S64x128 : Shape := ⟨2, ![64, 128]⟩
abbrev S128 : Shape := ⟨1, ![128]⟩
abbrev S128x128 : Shape := ⟨2, ![128, 128]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg0 : IVec S2x800000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x800000 32 := (extractStridedSlice S1x800000 ![0, 0] · slices_S2x800000_S1x800000_0_0) main_arg0
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg0
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : IVec S2x800000 32) (main_arg1 : FVec F S50000x64 .f32) (main_arg2 : FVec F S64x128 .f32) (main_arg3 : FVec F S128 .f32) (main_arg4 : FVec F S128x128 .f32) (main_arg5 : FVec F S128 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg5 main_v13 main_v16
-- ==== Kernel.lean ====
abbrev S2x800000 : Shape := ⟨2, ![2, 800000]⟩
abbrev S50000x64 : Shape := ⟨2, ![50000, 64]⟩
abbrev S64x128 : Shape := ⟨2, ![64, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩

abbrev nBuf : Space → Nat
  | .hbm => 68
  | .vmem => 16
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S1, .i32⟩
  | .hbm, ⟨19, _⟩ => ⟨S_, .i32⟩
  | .hbm, ⟨20, _⟩ => ⟨S800000x1, .i32⟩
  | .hbm, ⟨21, _⟩ => ⟨S800000x1, .i1⟩
  | .hbm, ⟨22, _⟩ => ⟨S1x1, .i32⟩
  | .hbm, ⟨23, _⟩ => ⟨S800000x1, .i32⟩
  | .hbm, ⟨24, _⟩ => ⟨S800000x1, .i1⟩
  | .hbm, ⟨25, _⟩ => ⟨S800000x1, .i1⟩
  | .hbm, ⟨26, _⟩ => ⟨S_, .i1⟩
  | .hbm, ⟨27, _⟩ => ⟨S800000, .i1⟩
  | .hbm, ⟨28, _⟩ => ⟨S800000x64, .f32⟩
  | .hbm, ⟨29, _⟩ => ⟨S800000x64, .i1⟩
  | .hbm, ⟨30, _⟩ => ⟨S_, .f32⟩
  | .hbm, ⟨31, _⟩ => ⟨S800000x64, .f32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S1, .i32⟩
  | .hbm, ⟨48, _⟩ => ⟨S_, .i32⟩
  | .hbm, ⟨49, _⟩ => ⟨S800000x1, .i32⟩
  | .hbm, ⟨50, _⟩ => ⟨S800000x1, .i1⟩
  | .hbm, ⟨51, _⟩ => ⟨S1x1, .i32⟩
  | .hbm, ⟨52, _⟩ => ⟨S800000x1, .i32⟩
  | .hbm, ⟨53, _⟩ => ⟨S800000x1, .i1⟩
  | .hbm, ⟨54, _⟩ => ⟨S800000x1, .i1⟩
  | .hbm, ⟨55, _⟩ => ⟨S_, .i1⟩
  | .hbm, ⟨56, _⟩ => ⟨S800000, .i1⟩
  | .hbm, ⟨57, _⟩ => ⟨S800000x128, .f32⟩
  | .hbm, ⟨58, _⟩ => ⟨S800000x128, .i1⟩
  | .hbm, ⟨59, _⟩ => ⟨S_, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S1x128, .f32⟩
  | .hbm, ⟨67, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v10 : Ref sig .tc := ⟨.hbm, 61, rfl⟩
abbrev main_cst_0 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x800000 : Shape := ⟨2, ![2, 800000]⟩
abbrev S50000x64 : Shape := ⟨2, ![50000, 64]⟩
abbrev S64x128 : Shape := ⟨2, ![64, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 52
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S50000x64, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.IndexRange.lean ====
/-
  Index words in range, and the one-bit masks computed from them.

  A gather in "fill" mode wraps a negative index word by adding the table height, reads the table, and then keeps a
  gathered row only where the wrapped index lies in [0, 49999]; elsewhere it writes a fill value. The keep mask is an
  array of one-bit words [800000, 1], reduced by `and` along its second axis and broadcast along each row.

  Three facts, over whole arrays:
  * when every index word lies in [0, 49999] the mask is 1 everywhere, so the select is its first branch;
  * a word that lies in [0, 50000) is its own wrap, and lies in [0, 49999];
  * the stated precondition says of every word of row 0 of the edge array that it lies in [0, 50000).
-/
import Idealize.ShloMosaic.PureOps
import Idealize.ShloMosaic.Lib.ReduceAll
import Idealize.ShloMosaic.Lib.StableHlo.Predicate
import Idealize.ShloMosaic.Lib.ValueIdx
import Idealize.ShloMosaic.Lib.Pipeline.Value
import proofs.«403961_j1082331759084_1_alg».proof.Pre_finite_inputs

namespace Cert.Gin

open Idealize.ShloMosaic

abbrev S_ : Shape := ⟨0, ![]⟩
abbrev S1 : Shape := ⟨1, ![1]⟩
abbrev S1x1 : Shape := ⟨2, ![1, 1]⟩
abbrev S800000 : Shape := ⟨1, ![800000]⟩
abbrev S800000x1 : Shape := ⟨2, ![800000, 1]⟩
abbrev S1x800000 : Shape := ⟨2, ![1, 800000]⟩
abbrev S2x800000 : Shape := ⟨2, ![2, 800000]⟩

/-- A left fold by `and` over one-bit words that are all 1, started at 1, is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- A reduction by `and`, from the constant 1, of an array of one-bit words that are all 1 is 1 at every index. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_ones x _ fun n _ => hx n

/-- With every index word in [0, 49999] the keep mask of the gather is 1 everywhere: the select returns the gathered rows. -/
theorem select_inrange_mask {F : FTy → Type} [FloatOps F] {D : Nat}
    (hcol : S800000.BroadcastsInDim S800000x1 (![0] : Fin 1 → Fin S800000x1.rank)) (h0 : S_.BroadcastsInDim S800000x1 (![] : Fin 0 → Fin S800000x1.rank))
    (h1 : S1.BroadcastsInDim S1x1 (![1] : Fin 1 → Fin S1x1.rank)) (h11 : S1x1.BroadcastsInDim S800000x1 (![0, 1] : Fin 2 → Fin S800000x1.rank))
    (hred : S800000x1.ReducesTo [1] S800000) (hS : 0 < S_.numel)
    (hD : S800000.BroadcastsInDim (⟨2, ![800000, D]⟩ : Shape) (![0] : Fin 1 → Fin 2))
    (idx : IVec S800000 32) (hidx : ∀ e, IntOp.cmpi .sge (idx e) 0#32 = 1#1 ∧ IntOp.cmpi .sle (idx e) 49999#32 = 1#1)
    (g fill : FVec F ⟨2, ![800000, D]⟩ .f32) :
    select (broadcastInDim (⟨2, ![800000, D]⟩ : Shape) ![0] hD
             ((fun x v => Host.reduce IntOp.andi x v hred hS)
               (andi (cmpi .sge (broadcastInDim S800000x1 ![0] hcol idx) (broadcastInDim S800000x1 ![] h0 (constantI S_ 32 0#32)))
                     (cmpi .sle (broadcastInDim S800000x1 ![0] hcol idx) (broadcastInDim S800000x1 ![0, 1] h11 (broadcastInDim S1x1 ![1] h1 (constantI S1 32 49999#32)))))
               (constantI S_ 1 1#1))) g fill = g := by
  -- the [800000, 1] mask: at every index both comparisons read one word of `idx` against the two constants
  have hm : ∀ j, andi (cmpi .sge (broadcastInDim S800000x1 ![0] hcol idx) (broadcastInDim S800000x1 ![] h0 (constantI S_ 32 0#32)))
      (cmpi .sle (broadcastInDim S800000x1 ![0] hcol idx) (broadcastInDim S800000x1 ![0, 1] h11 (broadcastInDim S1x1 ![1] h1 (constantI S1 32 49999#32)))) j = 1#1 := fun j => by
    show IntOp.andi (IntOp.cmpi .sge (idx _) 0#32) (IntOp.cmpi .sle (idx _) 49999#32) = 1#1
    rw [(hidx _).1, (hidx _).2]; rfl
  funext i
  rw [ValueIdx.select_apply]
  -- the broadcast of the reduced mask reads the reduced mask at one index, where it is 1
  have hb : broadcastInDim (⟨2, ![800000, D]⟩ : Shape) ![0] hD
      ((fun x v => Host.reduce IntOp.andi x v hred hS)
        (andi (cmpi .sge (broadcastInDim S800000x1 ![0] hcol idx) (broadcastInDim S800000x1 ![] h0 (constantI S_ 32 0#32)))
              (cmpi .sle (broadcastInDim S800000x1 ![0] hcol idx) (broadcastInDim S800000x1 ![0, 1] h11 (broadcastInDim S1x1 ![1] h1 (constantI S1 32 49999#32)))))
        (constantI S_ 1 1#1)) i = 1#1 := reduce_andi_ones _ hred hS hm _
  rw [hb, ValueIdx.select_one]

/-- A word in [0, 50000) is not negative, so its wrap is the word itself, and it lies in [0, 49999]. -/
theorem wrap_inrange (hb : S_.BroadcastsInDim S800000 (![] : Fin 0 → Fin S800000.rank)) (s : IVec S800000 32)
    (hs : ∀ e, IntOp.cmpi .sge (s e) 0#32 = 1#1 ∧ IntOp.cmpi .slt (s e) 50000#32 = 1#1) (e : S800000.Idx) :
    IntOp.cmpi .sge (select (cmpi .slt s (broadcastInDim S800000 ![] hb (constantI S_ 32 0#32))) (addi s (broadcastInDim S800000 ![] hb (constantI S_ 32 50000#32))) s e) 0#32 = 1#1
    ∧ IntOp.cmpi .sle (select (cmpi .slt s (broadcastInDim S800000 ![] hb (constantI S_ 32 0#32))) (addi s (broadcastInDim S800000 ![] hb (constantI S_ 32 50000#32))) s e) 49999#32 = 1#1 := by
  obtain ⟨h1, h2⟩ := hs e
  have hge := IntOp.cmpi_sge.1 h1
  have hlt := IntOp.cmpi_slt.1 h2
  have hneg : ¬ IntOp.cmpi .slt (s e) 0#32 = 1#1 := fun hc => by
    have := IntOp.cmpi_slt.1 hc; omega
  have hsel : select (cmpi .slt s (broadcastInDim S800000 ![] hb (constantI S_ 32 0#32))) (addi s (broadcastInDim S800000 ![] hb (constantI S_ 32 50000#32))) s e = s e := by
    show Scalar.select (IntOp.cmpi .slt (s e) 0#32) _ (s e) = s e
    rw [ValueIdx.eq_zero_of_ne_one hneg, ValueIdx.select_zero]
  rw [hsel]
  refine ⟨h1, IntOp.cmpi_sle.2 ?_⟩
  have e1 : (50000#32).toInt = 50000 := by decide
  have e2 : (49999#32).toInt = 49999 := by decide
  omega

instance : Subsingleton S_.Idx := ⟨fun a b => funext fun d => d.elim0⟩

/-- The precondition, read at one edge: the word of row 0 of the edge array lies in [0, 50000). -/
theorem src_of_pre [Cert.Pre_finite_inputs.Facts] {F : FTy → Type} [FloatOps F] (a0 : IVec S2x800000 32) (a1 : FVec F ⟨2, ![50000, 64]⟩ .f32) (a2 : FVec F ⟨2, ![64, 128]⟩ .f32) (a3 : FVec F ⟨1, ![128]⟩ .f32) (a4 : FVec F ⟨2, ![128, 128]⟩ .f32) (a5 : FVec F ⟨1, ![128]⟩ .f32)
    (h : Cert.Pre_finite_inputs.fn (F := F) a0 a1 a2 a3 a4 a5 = fun _ => 1#1)
    (hsl : S2x800000.Slices ![0, 0] S1x800000) (hsc : S1x800000.ShapeCasts S800000) (e : S800000.Idx) :
    IntOp.cmpi .sge (shapeCast S800000 (extractStridedSlice S1x800000 ![0, 0] a0 hsl) hsc e) 0#32 = 1#1
    ∧ IntOp.cmpi .slt (shapeCast S800000 (extractStridedSlice S1x800000 ![0, 0] a0 hsl) hsc e) 50000#32 = 1#1 := by
  have h' := congrFun h ValueIdx.ix0
  dsimp only [Cert.Pre_finite_inputs.fn, Cert.Pre_finite_inputs.fn_part1] at h'
  -- the predicate is a conjunction of five reductions; the last is the one over the 800000 edge words
  have h33 := (IntOp.andi_eq_one.1 h').2
  have h32 := Host.reduce_andi_all _ _ _ _ _ h33 e
  exact IntOp.andi_eq_one.1 h32

end Cert.Gin
-- ==== Proof.Spec.lean ====
/-
  One layer of the network, as a function of whole arrays over the extended reals.

  A layer takes node features `h` (50000 rows of width `D`), a neighbourhood sum `a` of the same shape, a weight
  matrix `w` (`D` by 128) and a bias `b` (128 entries), and returns, at row `r` and column `j`,

      max (sum over k < D of (h r k + a r k) * w k j  +  b j) 0.

  Both programs compute this function twice; the only thing that differs between them is how the
  neighbourhood sum is spelt, and that is a parameter here.
-/
import Idealize.ShloMosaic.PureOps.Ideal
import Idealize.ShloMosaic.Lib.ValueIdx

noncomputable section

open scoped BigOperators

namespace Cert.Gin

open Idealize.ShloMosaic

/-- Row `i 0`, column `k` of a [50000, D] array, from an index `i` of the [50000, 128] result. -/
abbrev rowAt {D : Nat} (i : (⟨2, ![50000, 128]⟩ : Shape).Idx) (k : Fin D) : (⟨2, ![50000, D]⟩ : Shape).Idx := fun a => match a with
  | ⟨0, _⟩ => ⟨(i 0).val, (i 0).isLt⟩
  | ⟨1, _⟩ => ⟨k.val, k.isLt⟩

/-- Row `k`, column `i 1` of a [D, 128] array. -/
abbrev colAt {D : Nat} (i : (⟨2, ![50000, 128]⟩ : Shape).Idx) (k : Fin D) : (⟨2, ![D, 128]⟩ : Shape).Idx := fun a => match a with
  | ⟨0, _⟩ => ⟨k.val, k.isLt⟩
  | ⟨1, _⟩ => ⟨(i 1).val, (i 1).isLt⟩

/-- Entry `i 1` of a vector of 128 entries. -/
abbrev biasAt (i : (⟨2, ![50000, 128]⟩ : Shape).Idx) : (⟨1, ![128]⟩ : Shape).Idx := fun a => match a with
  | ⟨0, _⟩ => ⟨(i 1).val, (i 1).isLt⟩

/-- The dense stage of a layer: `max (z · w + b) 0`, entry by entry, the product written as a sum over the shared axis. -/
def dense (D : Nat) (z : FVec Ideal ⟨2, ![50000, D]⟩ .f32) (w : FVec Ideal ⟨2, ![D, 128]⟩ .f32) (b : FVec Ideal ⟨1, ![128]⟩ .f32) :
    FVec Ideal ⟨2, ![50000, 128]⟩ .f32 :=
  fun i => max ((∑ k : Fin D, z (rowAt i k) * w (colAt i k)) + b (biasAt i)) 0

theorem dense_apply (D : Nat) (z : FVec Ideal ⟨2, ![50000, D]⟩ .f32) (w : FVec Ideal ⟨2, ![D, 128]⟩ .f32) (b : FVec Ideal ⟨1, ![128]⟩ .f32)
    (i : (⟨2, ![50000, 128]⟩ : Shape).Idx) :
    dense D z w b i = max ((∑ k : Fin D, z (rowAt i k) * w (colAt i k)) + b (biasAt i)) 0 := rfl

end Cert.Gin

end
-- ==== Proof.KernelTerms.lean ====
/-
  The host-side pieces of the kernel program, named once: the source and target node of every edge, the source
  index with negative values wrapped, the one-bit test "the wrapped index is a row of the table", the rows taken
  at those indices (a row whose index fails the test is replaced by a fill word), and the sum of taken rows
  over the edges that point at each node.
-/
import proofs.«403961_j1082331759084_1_alg».proof.Proof.Gen.KernelIdeal

noncomputable section

namespace Cert.KernelIdeal.Terms

open Cert.KernelIdeal Cert.KernelIdeal.Gen Idealize.ShloMosaic

variable {F : FTy → Type} [FloatOps F]

/-- The source node of every edge: row 0 of the edge list. -/
def src (a0 : IVec S2x800000 32) : IVec S800000 32 :=
  shapeCast S800000 (extractStridedSlice S1x800000 ![0, 0] a0 slices_S2x800000_S1x800000_0_0) shapeCasts_S1x800000_S800000

/-- The target node of every edge: row 1 of the edge list. -/
def dst (a0 : IVec S2x800000 32) : IVec S800000 32 :=
  shapeCast S800000 (extractStridedSlice S1x800000 ![1, 0] a0 slices_S2x800000_S1x800000_1_0) shapeCasts_S1x800000_S800000

/-- The source index with a negative value moved up by the number of rows, 50000. -/
def wrapped (a0 : IVec S2x800000 32) : IVec S800000 32 :=
  select (cmpi .slt (src a0) (broadcastInDim S800000 ![] bcast_S_S800000 (constantI S_ 32 0#32)))
    (addi (src a0) (broadcastInDim S800000 ![] bcast_S_S800000 (constantI S_ 32 50000#32))) (src a0)

/-- The wrapped indices as a column: the start indices of the row gather. -/
def startCol (a0 : IVec S2x800000 32) : IVec S800000x1 32 :=
  broadcastInDim S800000x1 ![0] bcast_S800000_S800000x1_0 (wrapped a0)

/-- Per edge, one bit: the wrapped index lies in 0 … 49999. -/
def inRange (a0 : IVec S2x800000 32) : IVec S800000 1 :=
  (fun x v => Host.reduce IntOp.andi x v reducesTo_S800000x1_S800000_d1 h_S_)
    (andi (cmpi .sge (startCol a0) (broadcastInDim S800000x1 ![] bcast_S_S800000x1 (constantI S_ 32 0#32)))
      (cmpi .sle (startCol a0) (broadcastInDim S800000x1 ![0, 1] bcast_S1x1_S800000x1_0_1 (broadcastInDim S1x1 ![1] bcast_S1_S1x1_1 (constantI S1 32 49999#32)))))
    (constantI S_ 1 1#1)

/-- The target indices as a column: where each edge's row is added. -/
def dstCol (a0 : IVec S2x800000 32) : IVec S800000x1 32 :=
  broadcastInDim S800000x1 ![0] bcast_S800000_S800000x1_0 (dst a0)

/-- Width 64: the table's rows at the wrapped indices, a row out of range replaced by the fill word. -/
def take64 (a0 : IVec S2x800000 32) (x : FVec F S50000x64 .f32) : FVec F S800000x64 .f32 :=
  select (broadcastInDim S800000x64 ![0] bcast_S800000_S800000x64_0 (inRange a0))
    (Host.gather gather_S50000x64_S800000x1_S800000x64_1_0_n_n_0_1_164 x (startCol a0))
    (broadcastInDim S800000x64 ![] bcast_S_S800000x64 (constant S_ .f32 0x7FC00000#32))

/-- Width 128: the same. -/
def take128 (a0 : IVec S2x800000 32) (x : FVec F S50000x128 .f32) : FVec F S800000x128 .f32 :=
  select (broadcastInDim S800000x128 ![0] bcast_S800000_S800000x128_0 (inRange a0))
    (Host.gather gather_S50000x128_S800000x1_S800000x128_1_0_n_n_0_1_1128 x (startCol a0))
    (broadcastInDim S800000x128 ![] bcast_S_S800000x128 (constant S_ .f32 0x7FC00000#32))

/-- Width 64: per node, the sum of the rows `u` of the edges that point at it, from zero. -/
def sum64 (a0 : IVec S2x800000 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32)) (dstCol a0) u

/-- Width 128: the same. -/
def sum128 (a0 : IVec S2x800000 32) (u : FVec F S800000x128 .f32) : FVec F S50000x128 .f32 :=
  Host.scatterAdd scatter_S50000x128_S800000x1_S800000x128_1_0_0_1
    (broadcastInDim S50000x128 ![] bcast_S_S50000x128 (constant S_ .f32 0x00000000#32)) (dstCol a0) u

end Cert.KernelIdeal.Terms

end
-- ==== Proof.RefLayers.lean ====
/-
  The reference network's two dense stages are the specification's `dense`.

  Each layer of the reference computes  max ((h + a) · w + b) 0  entry by entry, where `a` is the
  neighbourhood sum of `h` (left opaque here: it is only ever read at an index).  Over the extended reals every
  operation is exact, so reading the layer's last value at an index `i = (r, j)` and following the operands
  back gives  max ((∑ k, (h (r, k) + a (r, k)) * w (k, j)) + b j) 0,  which is `Cert.Gin.dense` at `i`.
-/
import proofs.«403961_j1082331759084_1_alg».proof.Proof.Gen.ReferenceIdeal.Read
import proofs.«403961_j1082331759084_1_alg».proof.Proof.Spec

noncomputable section

open scoped BigOperators

namespace Cert.ReferenceIdeal.RefValue

open Cert.ReferenceIdeal Cert.ReferenceIdeal.Gen Cert.ReferenceIdeal.Read Idealize.ShloMosaic

/-- Layer 1: the bias is read at column `i 1` through the two broadcasts (128 → 1×128 → 50000×128). -/
theorem bias1_idx (i : S50000x128.Idx) : idx_main_v16 (idx_main_v17 i) = Cert.Gin.biasAt i :=
  funext fun a => Fin.ext (by match a with | ⟨0, _⟩ => rfl)

/-- Layer 2: the same two broadcasts of the second bias. -/
theorem bias2_idx (i : S50000x128.Idx) : idx_main_v32 (idx_main_v33 i) = Cert.Gin.biasAt i :=
  funext fun a => Fin.ext (by match a with | ⟨0, _⟩ => rfl)

/-- Layer 1: the contraction reads row `i 0`, column `k` of the left operand … -/
theorem lidx1 (i : S50000x128.Idx) (k : Fin 64) : lidx_main_v15 i k = Cert.Gin.rowAt i k :=
  funext fun a => Fin.ext (by match a with | ⟨0, _⟩ => rfl | ⟨1, _⟩ => rfl)

/-- … and row `k`, column `i 1` of the weights. -/
theorem ridx1 (i : S50000x128.Idx) (k : Fin 64) : ridx_main_v15 i k = Cert.Gin.colAt i k :=
  funext fun a => Fin.ext (by match a with | ⟨0, _⟩ => rfl | ⟨1, _⟩ => rfl)

/-- Layer 2: the same two reads, over a shared axis of 128. -/
theorem lidx2 (i : S50000x128.Idx) (k : Fin 128) : lidx_main_v31 i k = Cert.Gin.rowAt i k :=
  funext fun a => Fin.ext (by match a with | ⟨0, _⟩ => rfl | ⟨1, _⟩ => rfl)

theorem ridx2 (i : S50000x128.Idx) (k : Fin 128) : ridx_main_v31 i k = Cert.Gin.colAt i k :=
  funext fun a => Fin.ext (by match a with | ⟨0, _⟩ => rfl | ⟨1, _⟩ => rfl)

/-- Layer 1 of the reference is `dense 64` of the input plus its neighbourhood sum. -/
theorem layer1 (x0 : IVec S2x800000 32) (x1 : FVec Ideal S50000x64 .f32) (x2 : FVec Ideal S64x128 .f32) (x3 : FVec Ideal S128 .f32) :
    val_main_v19 (F := Ideal) x0 x1 x2 x3 = Cert.Gin.dense 64 (addf x1 (val_main_v13 (F := Ideal) x0 x1)) x2 x3 := by
  funext i
  rw [val_main_v19_apply, val_main_v18_apply, val_main_v15_apply, val_main_v17_apply, val_main_v16_apply,
    val_main_call0_v0_apply, val_main_call0_cst_apply, Cert.Gin.dense_apply, bias1_idx]
  unfold val_main_v14
  generalize val_main_v13 (F := Ideal) x0 x1 = a
  rw [Ideal.maximumf_def, Ideal.addf_def, Ideal.ofBits_def, Ideal.ofBits_zero_f32]
  simp only [lidx1, ridx1]

/-- Layer 2 of the reference is `dense 128` of layer 1's result plus its neighbourhood sum. -/
theorem layer2 (x0 : IVec S2x800000 32) (x1 : FVec Ideal S50000x64 .f32) (x2 : FVec Ideal S64x128 .f32) (x3 : FVec Ideal S128 .f32) (x4 : FVec Ideal S128x128 .f32) (x5 : FVec Ideal S128 .f32) :
    val_main_v35 (F := Ideal) x0 x1 x2 x3 x4 x5 = Cert.Gin.dense 128 (addf (val_main_v19 (F := Ideal) x0 x1 x2 x3) (val_main_v29 (F := Ideal) x0 x1 x2 x3)) x4 x5 := by
  funext i
  rw [val_main_v35_apply, val_main_v34_apply, val_main_v31_apply, val_main_v33_apply, val_main_v32_apply,
    val_main_call1_v0_apply, val_main_call1_cst_apply, Cert.Gin.dense_apply, bias2_idx]
  unfold val_main_v30
  generalize val_main_v29 (F := Ideal) x0 x1 x2 x3 = a
  generalize val_main_v19 (F := Ideal) x0 x1 x2 x3 = h
  rw [Ideal.maximumf_def, Ideal.addf_def, Ideal.ofBits_def, Ideal.ofBits_zero_f32]
  simp only [lidx2, ridx2]

end Cert.ReferenceIdeal.RefValue

end
-- ==== Proof.Bridge.lean ====
/-
  The one function both programs compute, and the reference's side of it.

  With `nbr h` the neighbourhood sum of a feature array `h` (per node, the sum of the rows of `h` at the source
  nodes of the edges that point at it), the network is

      hid = dense (x + nbr x) w1 b1,      out = dense (hid + nbr hid) w2 b2.

  The kernel program takes the rows with a range test on the wrapped source index and a fill word where it fails;
  when every source index is a row number, 0 ≤ src < 50000, the test holds for every edge and the rows taken are
  the rows gathered. The reference gathers at the same wrapped indices without a test, so its neighbourhood sums are
  the same terms.
-/
import proofs.«403961_j1082331759084_1_alg».proof.Proof.Gen.ReferenceIdeal.Read
import proofs.«403961_j1082331759084_1_alg».proof.Proof.Spec
import proofs.«403961_j1082331759084_1_alg».proof.Proof.KernelTerms
import proofs.«403961_j1082331759084_1_alg».proof.Proof.IndexRange
import proofs.«403961_j1082331759084_1_alg».proof.Proof.RefLayers

noncomputable section

open Idealize.ShloMosaic

namespace Cert.Proof.Bridge

section Value

open Cert.KernelIdeal Cert.KernelIdeal.Gen Cert.KernelIdeal.Terms

/-- Width 64: per node, the sum over its incoming edges of the source nodes' rows of `x`. -/
def nbr64 (a0 : IVec S2x800000 32) (x : FVec Ideal S50000x64 .f32) : FVec Ideal S50000x64 .f32 :=
  sum64 a0 (Host.gather gather_S50000x64_S800000x1_S800000x64_1_0_n_n_0_1_164 x (startCol a0))

/-- Width 128: the same. -/
def nbr128 (a0 : IVec S2x800000 32) (x : FVec Ideal S50000x128 .f32) : FVec Ideal S50000x128 .f32 :=
  sum128 a0 (Host.gather gather_S50000x128_S800000x1_S800000x128_1_0_n_n_0_1_1128 x (startCol a0))

/-- The hidden features: the first layer. -/
def hid (a0 : IVec S2x800000 32) (x : FVec Ideal S50000x64 .f32) (w1 : FVec Ideal S64x128 .f32) (b1 : FVec Ideal S128 .f32) :
    FVec Ideal S50000x128 .f32 :=
  Cert.Gin.dense 64 (addf x (nbr64 a0 x)) w1 b1

/-- The network's result: the second layer over the first. -/
def outVal (a0 : IVec S2x800000 32) (x : FVec Ideal S50000x64 .f32) (w1 : FVec Ideal S64x128 .f32) (b1 : FVec Ideal S128 .f32)
    (w2 : FVec Ideal S128x128 .f32) (b2 : FVec Ideal S128 .f32) : FVec Ideal S50000x128 .f32 :=
  Cert.Gin.dense 128 (addf (hid a0 x w1 b1) (nbr128 a0 (hid a0 x w1 b1))) w2 b2

/-- Every source index a row number: the wrapped index passes the range test at every edge, so the rows taken are the
    rows gathered (width 64). -/
theorem take64_eq (a0 : IVec S2x800000 32) (x : FVec Ideal S50000x64 .f32)
    (hs : ∀ e, IntOp.cmpi .sge (src a0 e) 0#32 = 1#1 ∧ IntOp.cmpi .slt (src a0 e) 50000#32 = 1#1) :
    take64 a0 x = Host.gather gather_S50000x64_S800000x1_S800000x64_1_0_n_n_0_1_164 x (startCol a0) :=
  Cert.Gin.select_inrange_mask bcast_S800000_S800000x1_0 bcast_S_S800000x1 bcast_S1_S1x1_1 bcast_S1x1_S800000x1_0_1
    reducesTo_S800000x1_S800000_d1 h_S_ bcast_S800000_S800000x64_0 (wrapped a0)
    (fun e => Cert.Gin.wrap_inrange bcast_S_S800000 (src a0) hs e) _ _

/-- The same at width 128. -/
theorem take128_eq (a0 : IVec S2x800000 32) (x : FVec Ideal S50000x128 .f32)
    (hs : ∀ e, IntOp.cmpi .sge (src a0 e) 0#32 = 1#1 ∧ IntOp.cmpi .slt (src a0 e) 50000#32 = 1#1) :
    take128 a0 x = Host.gather gather_S50000x128_S800000x1_S800000x128_1_0_n_n_0_1_1128 x (startCol a0) :=
  Cert.Gin.select_inrange_mask bcast_S800000_S800000x1_0 bcast_S_S800000x1 bcast_S1_S1x1_1 bcast_S1x1_S800000x1_0_1
    reducesTo_S800000x1_S800000_d1 h_S_ bcast_S800000_S800000x128_0 (wrapped a0)
    (fun e => Cert.Gin.wrap_inrange bcast_S_S800000 (src a0) hs e) _ _

end Value

section Reference

open Cert.ReferenceIdeal Cert.ReferenceIdeal.Gen Cert.ReferenceIdeal.Read

/-- The reference's first neighbourhood sum is `nbr64`: the same gather at the same wrapped indices, summed at the
    same targets. -/
theorem ref_nbr64 (x0 : IVec S2x800000 32) (x1 : FVec Ideal S50000x64 .f32) :
    val_main_v13 (F := Ideal) x0 x1 = nbr64 x0 x1 := rfl

/-- Its second is `nbr128` of its hidden features. -/
theorem ref_nbr128 (x0 : IVec S2x800000 32) (x1 : FVec Ideal S50000x64 .f32) (x2 : FVec Ideal S64x128 .f32) (x3 : FVec Ideal S128 .f32) :
    val_main_v29 (F := Ideal) x0 x1 x2 x3 = nbr128 x0 (val_main_v19 (F := Ideal) x0 x1 x2 x3) := rfl

/-- The reference's result is `outVal` of its arguments. -/
theorem ref_value (x0 : IVec S2x800000 32) (x1 : FVec Ideal S50000x64 .f32) (x2 : FVec Ideal S64x128 .f32) (x3 : FVec Ideal S128 .f32)
    (x4 : FVec Ideal S128x128 .f32) (x5 : FVec Ideal S128 .f32) :
    val_main_v35 (F := Ideal) x0 x1 x2 x3 x4 x5 = outVal x0 x1 x2 x3 x4 x5 := by
  rw [Cert.ReferenceIdeal.RefValue.layer2, ref_nbr128, Cert.ReferenceIdeal.RefValue.layer1, ref_nbr64]
  rfl

end Reference

end Cert.Proof.Bridge

end
-- ==== Proof.HostChain.lean ====
/-
  What the buffers of the two kernel regions hold when each region is entered, as terms of the launch memory:
  the host operations between the launch and a region are composed, stretch by stretch, into the named
  pieces (source and target node of every edge, the rows taken at the source, their sum per target node).
-/
import proofs.«403961_j1082331759084_1_alg».proof.Proof.Gen.KernelIdeal.Frame
import proofs.«403961_j1082331759084_1_alg».proof.Proof.KernelTerms
import Idealize.ShloMosaic.Lib.StableHlo.Run

noncomputable section

namespace Cert.KernelIdeal.HostValue

open Cert.KernelIdeal Cert.KernelIdeal.Gen Cert.KernelIdeal.Terms Idealize.ShloMosaic Idealize.ShloMosaic.TcCoe Idealize.SL.Sem

variable {F : FTy → Type} [FloatOps F] (m : (ℓ : Loc nD τ sig) → Buf (Elt F) ℓ) (ρ : Dev nD → PrngReg)

/-- A buffer that no operation of a stretch writes is read through the stretch: every operation's one written
    reference differs from it. -/
macro "read_through" : tactic => `(tactic| (
  refine StableHlo.after_of_forall_not_mem _ _ (List.forall_iff_forall_mem.mp ?_)
  simp only [hostOps0, hostOps0_1, hostOps0_2, hostOps1, hostOps1_1, List.Forall, StableHlo.nullary_writes,
    StableHlo.unary_writes, StableHlo.binary_writes, StableHlo.ternary_writes, StableHlo.reshape_writes,
    Finset.mem_singleton]
  repeat' apply And.intro
  all_goals exact StableHlo.devRef_ne_of_ne (by decide)))

/-- The edge list at launch. -/
abbrev A0 (c : Dev nD) : IVec S2x800000 32 := m ((c : Thread nD τ).loc main_arg0)
/-- The node features at launch. -/
abbrev A1 (c : Dev nD) : FVec F S50000x64 .f32 := m ((c : Thread nD τ).loc main_arg1)
/-- The first layer's weight at launch. -/
abbrev A2 (c : Dev nD) : FVec F S64x128 .f32 := m ((c : Thread nD τ).loc main_arg2)
/-- The first layer's bias at launch. -/
abbrev A3 (c : Dev nD) : FVec F S128 .f32 := m ((c : Thread nD τ).loc main_arg3)
/-- The second layer's weight at launch. -/
abbrev A4 (c : Dev nD) : FVec F S128x128 .f32 := m ((c : Thread nD τ).loc main_arg4)
/-- The second layer's bias at launch. -/
abbrev A5 (c : Dev nD) : FVec F S128 .f32 := m ((c : Thread nD τ).loc main_arg5)

/-- Moving contents to a typed reference's buffer type and back is the identity. -/
theorem ofBuf_toBuf {T : BufTy} (x : StableHlo.TRef sig T) (v : T.Contents (Elt F)) : x.ofBuf (x.toBuf v) = v := by
  simp only [StableHlo.TRef.ofBuf, StableHlo.TRef.toBuf, cast_cast, cast_eq]

/-! ## Before region 0 -/

/-- After the first stretch main_v1 holds the source node of every edge. -/
theorem W1_v1 (c : Dev nD) : (W1 m ρ c (Proc.devRef .tc main_v1) : IVec S800000 32) = src (A0 m c) := by
  show StableHlo.after hostOps0 _ (Proc.devRef .tc main_v1) = _
  after_results
  rfl

/-- After the first stretch main_v3 holds the target node of every edge. -/
theorem W1_v3 (c : Dev nD) : (W1 m ρ c (Proc.devRef .tc main_v3) : IVec S800000 32) = dst (A0 m c) := by
  show StableHlo.after hostOps0 _ (Proc.devRef .tc main_v3) = _
  after_results
  rfl

/-- The first stretch writes main_v0 … main_v3 only: an argument is read through it. -/
theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by read_through
    _ = m ((c : Thread nD τ).loc main_arg1) := rfl
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by read_through
    _ = m ((c : Thread nD τ).loc main_arg2) := rfl
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by read_through
    _ = m ((c : Thread nD τ).loc main_arg3) := rfl
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by read_through
    _ = m ((c : Thread nD τ).loc main_arg4) := rfl
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by read_through
    _ = m ((c : Thread nD τ).loc main_arg5) := rfl

/-- The first take (rows of the features at the source nodes) lands in main_v4. -/
theorem W2_v4 (c : Dev nD) :
    (W2 m ρ c (Proc.devRef .tc main_v4) : FVec F S800000x64 .f32) = take64 (A0 m c) (A1 m c) := by
  show StableHlo.after hostOps0_1 (W1 m ρ c) (Proc.devRef .tc main_v4) = _
  have h1 := W1_v1 m ρ c
  have ha := W1_arg1 m ρ c
  generalize W1 m ρ c = W at h1 ha ⊢
  after_results_simp
  simp only [ofBuf_toBuf]
  simp only [StableHlo.TRef.ofBuf, StableHlo.TRef.toBuf, cast_eq]
  rw [h1, ha]
  rfl

/-- The take writes its own values and main_v4 only. -/
theorem W2_v3 (c : Dev nD) : (W2 m ρ c (Proc.devRef .tc main_v3) : IVec S800000 32) = dst (A0 m c) :=
  calc W2 m ρ c (Proc.devRef .tc main_v3)
    _ = W1 m ρ c (Proc.devRef .tc main_v3) := by read_through
    _ = dst (A0 m c) := W1_v3 m ρ c
theorem W2_v1 (c : Dev nD) : (W2 m ρ c (Proc.devRef .tc main_v1) : IVec S800000 32) = src (A0 m c) :=
  calc W2 m ρ c (Proc.devRef .tc main_v1)
    _ = W1 m ρ c (Proc.devRef .tc main_v1) := by read_through
    _ = src (A0 m c) := W1_v1 m ρ c
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by read_through
    _ = m ((c : Thread nD τ).loc main_arg1) := W1_arg1 m ρ c
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := by read_through
    _ = m ((c : Thread nD τ).loc main_arg2) := W1_arg2 m ρ c
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := by read_through
    _ = m ((c : Thread nD τ).loc main_arg3) := W1_arg3 m ρ c
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by read_through
    _ = m ((c : Thread nD τ).loc main_arg4) := W1_arg4 m ρ c
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by read_through
    _ = m ((c : Thread nD τ).loc main_arg5) := W1_arg5 m ρ c

/-- Region 0 is entered with the features as launched. -/
theorem entry0_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by read_through
    _ = m ((c : Thread nD τ).loc main_arg1) := W2_arg1 m ρ c

/-- Region 0 is entered with its weight as launched. -/
theorem entry0_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by read_through
    _ = m ((c : Thread nD τ).loc main_arg2) := W2_arg2 m ρ c

/-- Region 0 is entered with main_v7 the per-node sum of the taken feature rows. -/
theorem entry0_v7 (c : Dev nD) :
    W3 m ρ c (Proc.devRef .tc main_v7)
      = sum64 (m ((c : Thread nD τ).loc main_arg0)) (take64 (m ((c : Thread nD τ).loc main_arg0)) (m ((c : Thread nD τ).loc main_arg1))) := by
  show StableHlo.after hostOps0_2 (W2 m ρ c) (Proc.devRef .tc main_v7) = _
  have h3 := W2_v3 m ρ c
  have h4 := W2_v4 m ρ c
  generalize W2 m ρ c = W at h3 h4 ⊢
  after_results
  rw [h3, h4]
  rfl

/-- Region 0 is entered with main_v8 the bias as one row. -/
theorem entry0_v8 (c : Dev nD) :
    W3 m ρ c (Proc.devRef .tc main_v8) = shapeCast S1x128 (m ((c : Thread nD τ).loc main_arg3)) shapeCasts_S128_S1x128 := by
  show StableHlo.after hostOps0_2 (W2 m ρ c) (Proc.devRef .tc main_v8) = _
  have h3 := W2_arg3 m ρ c
  generalize W2 m ρ c = W at h3 ⊢
  after_results
  rw [h3]
  rfl

/-! ## Between the regions -/

theorem W3_v1 (c : Dev nD) : (W3 m ρ c (Proc.devRef .tc main_v1) : IVec S800000 32) = src (A0 m c) :=
  calc W3 m ρ c (Proc.devRef .tc main_v1)
    _ = W2 m ρ c (Proc.devRef .tc main_v1) := by read_through
    _ = src (A0 m c) := W2_v1 m ρ c
theorem W3_v3 (c : Dev nD) : (W3 m ρ c (Proc.devRef .tc main_v3) : IVec S800000 32) = dst (A0 m c) :=
  calc W3 m ρ c (Proc.devRef .tc main_v3)
    _ = W2 m ρ c (Proc.devRef .tc main_v3) := by read_through
    _ = dst (A0 m c) := W2_v3 m ρ c
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by read_through
    _ = m ((c : Thread nD τ).loc main_arg4) := W2_arg4 m ρ c
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by read_through
    _ = m ((c : Thread nD τ).loc main_arg5) := W2_arg5 m ρ c

/-- Region 0 takes neither the edge columns nor the second layer's parameters: they leave it as they entered. -/
theorem W4_v1 (c : Dev nD) : (W4 m ρ c (Proc.devRef .tc main_v1) : IVec S800000 32) = src (A0 m c) :=
  (W4_of_ne m ρ c main_v1 (by decide)).trans (W3_v1 m ρ c)
theorem W4_v3 (c : Dev nD) : (W4 m ρ c (Proc.devRef .tc main_v3) : IVec S800000 32) = dst (A0 m c) :=
  (W4_of_ne m ρ c main_v3 (by decide)).trans (W3_v3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-- The second take (rows of region 0's output at the source nodes) lands in main_v10. -/
theorem W5_v10 (c : Dev nD) :
    (W5 m ρ c (Proc.devRef .tc main_v10) : FVec F S800000x128 .f32)
      = take128 (A0 m c) (W4 m ρ c (Proc.devRef .tc main_v9)) := by
  show StableHlo.after hostOps1 (W4 m ρ c) (Proc.devRef .tc main_v10) = _
  have h1 := W4_v1 m ρ c
  generalize W4 m ρ c = W at h1 ⊢
  after_results_simp
  simp only [ofBuf_toBuf]
  simp only [StableHlo.TRef.ofBuf, StableHlo.TRef.toBuf, cast_eq]
  rw [h1]
  rfl

theorem W5_v3 (c : Dev nD) : (W5 m ρ c (Proc.devRef .tc main_v3) : IVec S800000 32) = dst (A0 m c) :=
  calc W5 m ρ c (Proc.devRef .tc main_v3)
    _ = W4 m ρ c (Proc.devRef .tc main_v3) := by read_through
    _ = dst (A0 m c) := W4_v3 m ρ c
theorem W5_v9 (c : Dev nD) : W5 m ρ c (Proc.devRef .tc main_v9) = W4 m ρ c (Proc.devRef .tc main_v9) := by
  read_through
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by read_through
    _ = m ((c : Thread nD τ).loc main_arg4) := W4_arg4 m ρ c
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by read_through
    _ = m ((c : Thread nD τ).loc main_arg5) := W4_arg5 m ρ c

/-- Region 1 is entered with region 0's output as region 0 left it. -/
theorem entry1_v9 (c : Dev nD) : W6 m ρ c (Proc.devRef .tc main_v9) = W4 m ρ c (Proc.devRef .tc main_v9) :=
  calc W6 m ρ c (Proc.devRef .tc main_v9)
    _ = W5 m ρ c (Proc.devRef .tc main_v9) := by read_through
    _ = W4 m ρ c (Proc.devRef .tc main_v9) := W5_v9 m ρ c

/-- Region 1 is entered with its weight as launched. -/
theorem entry1_arg4 (c : Dev nD) : W6 m ρ c (Proc.devRef .tc main_arg4) = m ((c : Thread nD τ).loc main_arg4) :=
  calc W6 m ρ c (Proc.devRef .tc main_arg4)
    _ = W5 m ρ c (Proc.devRef .tc main_arg4) := by read_through
    _ = m ((c : Thread nD τ).loc main_arg4) := W5_arg4 m ρ c

/-- Region 1 is entered with main_v13 the per-node sum of the rows taken from region 0's output. -/
theorem entry1_v13 (c : Dev nD) :
    W6 m ρ c (Proc.devRef .tc main_v13)
      = sum128 (m ((c : Thread nD τ).loc main_arg0)) (take128 (m ((c : Thread nD τ).loc main_arg0)) (W4 m ρ c (Proc.devRef .tc main_v9))) := by
  show StableHlo.after hostOps1_1 (W5 m ρ c) (Proc.devRef .tc main_v13) = _
  have h3 := W5_v3 m ρ c
  have h10 := W5_v10 m ρ c
  generalize W4 m ρ c (Proc.devRef .tc main_v9) = T at h10 ⊢
  generalize W5 m ρ c = W at h3 h10 ⊢
  after_results
  rw [h3, h10]
  rfl

/-- Region 1 is entered with main_v14 the second bias as one row. -/
theorem entry1_v14 (c : Dev nD) :
    W6 m ρ c (Proc.devRef .tc main_v14) = shapeCast S1x128 (m ((c : Thread nD τ).loc main_arg5)) shapeCasts_S128_S1x128 := by
  show StableHlo.after hostOps1_1 (W5 m ρ c) (Proc.devRef .tc main_v14) = _
  have h5 := W5_arg5 m ρ c
  generalize W5 m ρ c = W at h5 ⊢
  after_results
  rw [h5]
  rfl

end Cert.KernelIdeal.HostValue

end
-- ==== Proof.Region0.lean ====
/-
  What the first kernel region leaves in its result array: the dense stage of a layer (Spec.lean) of the arrays the
  region finds at its entry.

  The region runs over ten grid points; at point t it sees rows 5000 t … 5000 t + 4999 of the feature array and of the
  neighbourhood-sum array, the whole weight matrix and the bias row, and writes rows 5000 t … 5000 t + 4999 of the
  result. Its body adds the two row blocks, multiplies by the weights into a zero accumulator, adds the bias row to
  every row and takes the maximum with zero. Read at one entry (row p of the block, column q) this is

      max (sum over k < 64 of (x0 p k + x1 p k) * w k q  +  b 0 q) 0,

  and row p of block t is row 5000 t + p of the array, so the blocks together are the dense stage of the whole arrays.
-/
import proofs.«403961_j1082331759084_1_alg».proof.Proof.Gen.KernelIdeal.Frame
import proofs.«403961_j1082331759084_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-! ## The body's arithmetic at one entry of the block -/

/-- Row `i 0`, column `k` of a [5000, 64] block. -/
abbrev lcell (i : S5000x128.Idx) (k : Fin 64) : S5000x64.Idx := fun a => match a with
  | ⟨0, _⟩ => ⟨(i 0).val, (i 0).isLt⟩
  | ⟨1, _⟩ => ⟨k.val, k.isLt⟩
/-- Row `k`, column `i 1` of the [64, 128] weights. -/
abbrev rcell (i : S5000x128.Idx) (k : Fin 64) : S64x128.Idx := fun a => match a with
  | ⟨0, _⟩ => ⟨k.val, k.isLt⟩
  | ⟨1, _⟩ => ⟨(i 1).val, (i 1).isLt⟩
/-- Column `i 1` of the [1, 128] bias row. -/
abbrev bcell (i : S5000x128.Idx) : S1x128.Idx := fun a => match a with
  | ⟨0, _⟩ => ⟨0, Nat.one_pos⟩
  | ⟨1, _⟩ => ⟨(i 1).val, (i 1).isLt⟩

theorem lhs_axis0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_axis1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_axis0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_axis1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product into a zero accumulator, at an entry: the sum over the shared axis. -/
theorem matmul_cell (l : FVec Ideal S5000x64 .bf16) (r : FVec Ideal S64x128 .bf16) (i : S5000x128.Idx) :
    matmul dot_S5000x64_S64x128_S5000x128_1_0_0_1_n_n none l r (constant S5000x128 .f32 0x00000000#32) i = ∑ k : Fin 64, l (lcell i k) * r (rcell i k) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx i ((ValueIdx.contrEquiv1 dot_S5000x64_S64x128_S5000x128_1_0_0_1_n_n 64 rfl rfl).symm k) = lcell i k := funext fun a => Fin.ext (by
    match a with
    | ⟨0, _⟩ => exact lhs_axis0 _ _
    | ⟨1, _⟩ => exact (lhs_axis1 _ _).trans hk)
  have er : dot_S5000x64_S64x128_S5000x128_1_0_0_1_n_n.rhsIdx i ((ValueIdx.contrEquiv1 dot_S5000x64_S64x128_S5000x128_1_0_0_1_n_n 64 rfl rfl).symm k) = rcell i k := funext fun a => Fin.ext (by
    match a with
    | ⟨0, _⟩ => exact (rhs_axis0 _ _).trans hk
    | ⟨1, _⟩ => exact rhs_axis1 _ _)
  rw [el, er]

/-- The bias row laid over the block's rows, at an entry. -/
theorem bias_cell (b : FVec Ideal S1x128 .f32) (i : S5000x128.Idx) :
    broadcastTo S5000x128 b broadcasts_S1x128_S5000x128 i = b (bcell i) := by
  refine broadcastTo_apply b broadcasts_S1x128_S5000x128 i (bcell i) fun a => ?_
  match a with
  | ⟨0, _⟩ => show 0 = if (1 : Nat) = 1 then 0 else _; rw [if_pos rfl]
  | ⟨1, _⟩ => show (i 1).val = if (128 : Nat) = 1 then 0 else (i 1).val; rw [if_neg (by decide)]

/-- The whole body at an entry. -/
theorem pay_cell (x0 x1 : Vec Ideal S5000x64 .f32) (x2 : Vec Ideal S64x128 .f32) (x3 : Vec Ideal S1x128 .f32) (i : S5000x128.Idx) :
    k0_pay1 x0 x1 x2 x3 i = max ((∑ k : Fin 64, (x0 (lcell i k) + x1 (lcell i k)) * x2 (rcell i k)) + x3 (bcell i)) 0 := by
  unfold k0_pay1
  simp only [shapeCast_self]
  rw [maximumf_apply, addf_apply, matmul_cell, bias_cell]
  simp only [truncf_apply, addf_apply, broadcast_apply]
  show max _ (Ideal.ofBits .f32 0x00000000#32) = _
  rw [Ideal.ofBits_zero_f32]

/-! ## From the blocks to the array -/

variable (V : (c : Dev nD) → (b : Ref sig .tc) → Buf (Elt Ideal) ((c : Thread nD τ).loc b))

/-- The four arrays the region reads, as it finds them, at their literal types. -/
abbrev featArr (c : Dev nD) : FVec Ideal S50000x64 .f32 := V c main_arg1
abbrev nbrArr (c : Dev nD) : FVec Ideal S50000x64 .f32 := V c main_v7
abbrev wArr (c : Dev nD) : FVec Ideal S64x128 .f32 := V c main_arg2
abbrev bRow (c : Dev nD) : FVec Ideal S1x128 .f32 := V c main_v8

/-- A [1, 128] row as a vector of 128 entries. -/
def rowVec (b : FVec Ideal S1x128 .f32) : FVec Ideal S128 .f32 := fun j => b (fun a => match a with
  | ⟨0, _⟩ => ⟨0, Nat.one_pos⟩
  | ⟨1, _⟩ => ⟨(j 0).val, (j 0).isLt⟩)

/-- What the result array ends holding: the dense stage of the arrays at the region's entry. -/
abbrev G (c : Dev nD) : FVec Ideal S50000x128 .f32 :=
  Cert.Gin.dense 64 (addf (featArr V c) (nbrArr V c)) (wArr V c) (rowVec (bRow V c))

theorem hz : (![0, 0] : Fin 2 → Nat) = fun _ => 0 := funext fun a => by fin_cases a <;> rfl

/-- The printed index maps over the grid: the two row-blocked inputs move with the output, along rows only; the
    weights and the bias stay at block (0, 0); the output's row block is the point's number. -/
theorem idx_facts : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x128) hz, View.ld_unit_zero (S := S1x128) hz]
  obtain ⟨e0, e1, e2, e3, e4, e5, e6, e7, e8, e9⟩ := idx_facts t
  funext j
  show k0_pay1 (iblk0 V c 0 t) (iblk0 V c 1 t) (iblk0 V c 2 t) (iblk0 V c 3 t) j = G V c (((cfg0.win 4).blk t).view.emb j)
  refine (pay_cell (iblk0 V c 0 t) (iblk0 V c 1 t) (iblk0 V c 2 t) (iblk0 V c 3 t) j).trans ?_
  refine Eq.trans ?_ (Cert.Gin.dense_apply 64 (addf (featArr V c) (nbrArr V c)) (wArr V c) (rowVec (bRow V c)) (((cfg0.win 4).blk t).view.emb j)).symm
  -- each input block, read where the body reads it, is its array at the matching row and column
  have r0 : ∀ k : Fin 64, (iblk0 V c 0 t : Vec Ideal S5000x64 .f32) (lcell j k) = featArr V c (Cert.Gin.rowAt (((cfg0.win 4).blk t).view.emb j) k) := fun k => by
    show V c main_arg1 (((cfg0.win 0).blk t).view.emb (lcell j k)) = V c main_arg1 _
    refine congrArg (V c main_arg1) (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 64 + 1 * k.val = k.val; omega
  have r1 : ∀ k : Fin 64, (iblk0 V c 1 t : Vec Ideal S5000x64 .f32) (lcell j k) = nbrArr V c (Cert.Gin.rowAt (((cfg0.win 4).blk t).view.emb j) k) := fun k => by
    show V c main_v7 (((cfg0.win 1).blk t).view.emb (lcell j k)) = V c main_v7 _
    refine congrArg (V c main_v7) (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 64 + 1 * k.val = k.val; omega
  have r2 : ∀ k : Fin 64, (iblk0 V c 2 t : Vec Ideal S64x128 .f32) (rcell j k) = wArr V c (Cert.Gin.colAt (((cfg0.win 4).blk t).view.emb j) k) := fun k => by
    show V c main_arg2 (((cfg0.win 2).blk t).view.emb (rcell j k)) = V c main_arg2 _
    refine congrArg (V c main_arg2) (funext fun a => Fin.ext ?_)
    match a with
    | ⟨0, _⟩ => show win0_2.index t (0 : Fin 2) * 64 + 1 * k.val = k.val; omega
    | ⟨1, _⟩ => show win0_2.index t (1 : Fin 2) * 128 + 1 * (j 1).val = win0_4.index t (1 : Fin 2) * 128 + 1 * (j 1).val; omega
  have r3 : (iblk0 V c 3 t : Vec Ideal S1x128 .f32) (bcell j) = rowVec (bRow V c) (Cert.Gin.biasAt (((cfg0.win 4).blk t).view.emb j)) := by
    show V c main_v8 (((cfg0.win 3).blk t).view.emb (bcell j)) = V c main_v8 _
    refine congrArg (V c main_v8) (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega
  rw [r3]
  refine congrArg (fun s => max (s + _) 0) (Finset.sum_congr rfl fun k _ => ?_)
  rw [r0 k, r1 k, r2 k]
  rfl

/-- An index of the result array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v9).slice (win0_4.rect t)).set ↔ _
  rw [View.set_slice_whole, Rect.mem_set_unit]
  exact Iff.rfl

/-- Row `r` of the result lies in the block of point `r / 5000`: the ten blocks cover the array. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, e8, e9⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE RESULT ARRAY after the region: the dense stage of the arrays at its entry. -/
theorem final (c : Dev nD) : (dat0 V c).arrAt 4 cfg0.N = G V c :=
  (dat0 V c).arrAt_eq_of_cover 4 (G V c) (fun t _ => flushed_eq V c t) cover

end Cert.KernelIdeal.Region0

end
-- ==== Proof.Region1.lean ====
/-
  What the second kernel region leaves in its result array: the dense stage of a layer (Spec.lean) of the arrays the
  region finds at its entry.

  The region runs over ten grid points; at point t it sees rows 5000 t … 5000 t + 4999 of the feature array and of the
  neighbourhood-sum array, the whole weight matrix and the bias row, and writes rows 5000 t … 5000 t + 4999 of the
  result. Its body adds the two row blocks, multiplies by the weights into a zero accumulator, adds the bias row to
  every row and takes the maximum with zero. Read at one entry (row p of the block, column q) this is

      max (sum over k < 128 of (x0 p k + x1 p k) * w k q  +  b 0 q) 0,

  and row p of block t is row 5000 t + p of the array, so the blocks together are the dense stage of the whole arrays.
-/
import proofs.«403961_j1082331759084_1_alg».proof.Proof.Gen.KernelIdeal.Frame
import proofs.«403961_j1082331759084_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-! ## The body's arithmetic at one entry of the block -/

/-- Row `i 0`, column `k` of a [5000, 128] block. -/
abbrev lcell (i : S5000x128.Idx) (k : Fin 128) : S5000x128.Idx := fun a => match a with
  | ⟨0, _⟩ => ⟨(i 0).val, (i 0).isLt⟩
  | ⟨1, _⟩ => ⟨k.val, k.isLt⟩
/-- Row `k`, column `i 1` of the [128, 128] weights. -/
abbrev rcell (i : S5000x128.Idx) (k : Fin 128) : S128x128.Idx := fun a => match a with
  | ⟨0, _⟩ => ⟨k.val, k.isLt⟩
  | ⟨1, _⟩ => ⟨(i 1).val, (i 1).isLt⟩
/-- Column `i 1` of the [1, 128] bias row. -/
abbrev bcell (i : S5000x128.Idx) : S1x128.Idx := fun a => match a with
  | ⟨0, _⟩ => ⟨0, Nat.one_pos⟩
  | ⟨1, _⟩ => ⟨(i 1).val, (i 1).isLt⟩

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at an entry: the sum over the shared axis. -/
theorem matmul_cell (l : FVec Ideal S5000x128 .bf16) (r : FVec Ideal S128x128 .bf16) (i : S5000x128.Idx) :
    matmul dot_S5000x128_S128x128_S5000x128_1_0_0_1_n_n none l r (constant S5000x128 .f32 0x00000000#32) i = ∑ k : Fin 128, l (lcell i k) * r (rcell i k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = lcell i k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((ValueIdx.contrEquiv1 dot_S5000x128_S128x128_S5000x128_1_0_0_1_n_n 128 rfl rfl).symm k) = rcell i k := funext fun a => Fin.ext (by
    match a with
    | ⟨0, _⟩ => exact (rhs_axis0 _ _).trans hk
    | ⟨1, _⟩ => exact rhs_axis1 _ _)
  rw [el, er]

/-- The bias row laid over the block's rows, at an entry. -/
theorem bias_cell (b : FVec Ideal S1x128 .f32) (i : S5000x128.Idx) :
    broadcastTo S5000x128 b broadcasts_S1x128_S5000x128 i = b (bcell i) := by
  refine broadcastTo_apply b broadcasts_S1x128_S5000x128 i (bcell i) fun a => ?_
  match a with
  | ⟨0, _⟩ => show 0 = if (1 : Nat) = 1 then 0 else _; rw [if_pos rfl]
  | ⟨1, _⟩ => show (i 1).val = if (128 : Nat) = 1 then 0 else (i 1).val; rw [if_neg (by decide)]

/-- The whole body at an entry. -/
theorem pay_cell (x0 x1 : Vec Ideal S5000x128 .f32) (x2 : Vec Ideal S128x128 .f32) (x3 : Vec Ideal S1x128 .f32) (i : S5000x128.Idx) :
    k1_pay1 x0 x1 x2 x3 i = max ((∑ k : Fin 128, (x0 (lcell i k) + x1 (lcell i k)) * x2 (rcell i k)) + x3 (bcell i)) 0 := by
  unfold k1_pay1
  simp only [shapeCast_self]
  rw [maximumf_apply, addf_apply, matmul_cell, bias_cell]
  simp only [truncf_apply, addf_apply, broadcast_apply]
  show max _ (Ideal.ofBits .f32 0x00000000#32) = _
  rw [Ideal.ofBits_zero_f32]

/-! ## From the blocks to the array -/

variable (V : (c : Dev nD) → (b : Ref sig .tc) → Buf (Elt Ideal) ((c : Thread nD τ).loc b))

/-- The four arrays the region reads, as it finds them, at their literal types. -/
abbrev featArr (c : Dev nD) : FVec Ideal S50000x128 .f32 := V c main_v9
abbrev nbrArr (c : Dev nD) : FVec Ideal S50000x128 .f32 := V c main_v13
abbrev wArr (c : Dev nD) : FVec Ideal S128x128 .f32 := V c main_arg4
abbrev bRow (c : Dev nD) : FVec Ideal S1x128 .f32 := V c main_v14

/-- A [1, 128] row as a vector of 128 entries. -/
def rowVec (b : FVec Ideal S1x128 .f32) : FVec Ideal S128 .f32 := fun j => b (fun a => match a with
  | ⟨0, _⟩ => ⟨0, Nat.one_pos⟩
  | ⟨1, _⟩ => ⟨(j 0).val, (j 0).isLt⟩)

/-- What the result array ends holding: the dense stage of the arrays at the region's entry. -/
abbrev G (c : Dev nD) : FVec Ideal S50000x128 .f32 :=
  Cert.Gin.dense 128 (addf (featArr V c) (nbrArr V c)) (wArr V c) (rowVec (bRow V c))

theorem hz : (![0, 0] : Fin 2 → Nat) = fun _ => 0 := funext fun a => by fin_cases a <;> rfl

/-- The printed index maps over the grid: the two row-blocked inputs move with the output, along rows only; the
    weights and the bias stay at block (0, 0); the output's row block is the point's number. -/
theorem idx_facts : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9⟩ := idx_facts t
  funext j
  show k1_pay1 (iblk1 V c 0 t) (iblk1 V c 1 t) (iblk1 V c 2 t) (iblk1 V c 3 t) j = G V c (((cfg1.win 4).blk t).view.emb j)
  refine (pay_cell (iblk1 V c 0 t) (iblk1 V c 1 t) (iblk1 V c 2 t) (iblk1 V c 3 t) j).trans ?_
  refine Eq.trans ?_ (Cert.Gin.dense_apply 128 (addf (featArr V c) (nbrArr V c)) (wArr V c) (rowVec (bRow V c)) (((cfg1.win 4).blk t).view.emb j)).symm
  -- each input block, read where the body reads it, is its array at the matching row and column
  have r0 : ∀ k : Fin 128, (iblk1 V c 0 t : Vec Ideal S5000x128 .f32) (lcell j k) = featArr V c (Cert.Gin.rowAt (((cfg1.win 4).blk t).view.emb j) k) := fun k => by
    show V c main_v9 (((cfg1.win 0).blk t).view.emb (lcell j k)) = V c main_v9 _
    refine congrArg (V c main_v9) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have r1 : ∀ k : Fin 128, (iblk1 V c 1 t : Vec Ideal S5000x128 .f32) (lcell j k) = nbrArr V c (Cert.Gin.rowAt (((cfg1.win 4).blk t).view.emb j) k) := fun k => by
    show V c main_v13 (((cfg1.win 1).blk t).view.emb (lcell j k)) = V c main_v13 _
    refine congrArg (V c main_v13) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  have r2 : ∀ k : Fin 128, (iblk1 V c 2 t : Vec Ideal S128x128 .f32) (rcell j k) = wArr V c (Cert.Gin.colAt (((cfg1.win 4).blk t).view.emb j) k) := fun k => by
    show V c main_arg4 (((cfg1.win 2).blk t).view.emb (rcell j k)) = V c main_arg4 _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  have r3 : (iblk1 V c 3 t : Vec Ideal S1x128 .f32) (bcell j) = rowVec (bRow V c) (Cert.Gin.biasAt (((cfg1.win 4).blk t).view.emb j)) := by
    show V c main_v14 (((cfg1.win 3).blk t).view.emb (bcell j)) = V c main_v14 _
    refine congrArg (V c main_v14) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [r3]
  refine congrArg (fun s => max (s + _) 0) (Finset.sum_congr rfl fun k _ => ?_)
  rw [r0 k, r1 k, r2 k]
  rfl

/-- An index of the result array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v15).slice (win1_4.rect t)).set ↔ _
  rw [View.set_slice_whole, Rect.mem_set_unit]
  exact Iff.rfl

/-- Row `r` of the result lies in the block of point `r / 5000`: the ten blocks cover the array. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, e8, e9⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE RESULT ARRAY after the region: the dense stage of the arrays at its entry. -/
theorem final (c : Dev nD) : (dat1 V c).arrAt 4 cfg1.N = G V c :=
  (dat1 V c).arrAt_eq_of_cover 4 (G V c) (fun t _ => flushed_eq V c t) cover

end Cert.KernelIdeal.Region1

end
-- ==== Proof.KernelValue.lean ====
/-
  The kernel program's run, with its result array read as the network's function of the argument arrays.

  The result array ends at what the second region's write-backs leave: the dense stage (Region1) of the arrays that
  region finds. Of those, the features are the first region's result — the dense stage (Region0) of the arrays the
  first region finds — passed unchanged through the host operations in between, and the neighbourhood sums are what the
  host operations before each region compute. When every source index is a row number the rows taken are the rows
  gathered (Bridge), and the bias rows read back as the bias vectors.
-/
import proofs.«403961_j1082331759084_1_alg».proof.Proof.Gen.KernelIdeal.Frame
import proofs.«403961_j1082331759084_1_alg».proof.Proof.KernelRun
import proofs.«403961_j1082331759084_1_alg».proof.Proof.HostChain
import proofs.«403961_j1082331759084_1_alg».proof.Proof.Region0
import proofs.«403961_j1082331759084_1_alg».proof.Proof.Region1
import proofs.«403961_j1082331759084_1_alg».proof.Proof.Bridge
import Idealize.ShloMosaic.Lib.Pipeline.Value

set_option maxRecDepth 16384

noncomputable section

open Idealize.ShloMosaic Idealize.ShloMosaic.TcCoe Idealize.SL.Sem

namespace Cert.KernelIdeal.KernelValue

open Cert.KernelIdeal Cert.KernelIdeal.Gen Cert.KernelIdeal.Terms Cert.KernelIdeal.HostValue Cert.Proof.Bridge

variable (m : (ℓ : Loc nD τ sig) → Buf (Elt Ideal) ℓ) (ρ : Dev nD → PrngReg)

/-- A vector cast to a one-row array and read back as a vector is the vector. -/
theorem rowVec0_cast (b : FVec Ideal S128 .f32) : Region0.rowVec (shapeCast S1x128 b shapeCasts_S128_S1x128) = b := by
  funext j
  unfold Region0.rowVec
  refine shapeCast_apply b shapeCasts_S128_S1x128 _ j ?_
  rw [Shape.rowMajor_val_two, Shape.rowMajor_val_one]
  show (j 0).val = 0 * 128 + (j 0).val
  omega

theorem rowVec1_cast (b : FVec Ideal S128 .f32) : Region1.rowVec (shapeCast S1x128 b shapeCasts_S128_S1x128) = b := by
  funext j
  unfold Region1.rowVec
  refine shapeCast_apply b shapeCasts_S128_S1x128 _ j ?_
  rw [Shape.rowMajor_val_two, Shape.rowMajor_val_one]
  show (j 0).val = 0 * 128 + (j 0).val
  omega

/-- The first region's result, as the second stretch of host operations finds it: the hidden features. -/
theorem hidden_eq (c : Dev nD)
    (hs : ∀ e, IntOp.cmpi .sge (src (m ((c : Thread nD τ).loc main_arg0)) e) 0#32 = 1#1 ∧ IntOp.cmpi .slt (src (m ((c : Thread nD τ).loc main_arg0)) e) 50000#32 = 1#1) :
    W4 m ρ c (Proc.devRef .tc main_v9) = hid (m ((c : Thread nD τ).loc main_arg0)) (m ((c : Thread nD τ).loc main_arg1)) (m ((c : Thread nD τ).loc main_arg2)) (m ((c : Thread nD τ).loc main_arg3)) := by
  refine (W4_arr m ρ c 4).trans ?_
  rw [Region0.final]
  show Cert.Gin.dense 64 (addf (W3 m ρ c (Proc.devRef .tc main_arg1)) (W3 m ρ c (Proc.devRef .tc main_v7))) (W3 m ρ c (Proc.devRef .tc main_arg2)) (Region0.rowVec (W3 m ρ c (Proc.devRef .tc main_v8))) = _
  rw [entry0_arg1, entry0_v7, entry0_arg2, entry0_v8, rowVec0_cast, take64_eq _ _ hs]
  rfl

/-- The result array after the run is the network's function of the arguments. -/
theorem result_eq (c : Dev nD)
    (hs : ∀ e, IntOp.cmpi .sge (src (m ((c : Thread nD τ).loc main_arg0)) e) 0#32 = 1#1 ∧ IntOp.cmpi .slt (src (m ((c : Thread nD τ).loc main_arg0)) e) 50000#32 = 1#1) :
    W7 m ρ c (Proc.devRef .tc main_v15) = outVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ?_
  rw [Region1.final]
  show Cert.Gin.dense 128 (addf (W6 m ρ c (Proc.devRef .tc main_v9)) (W6 m ρ c (Proc.devRef .tc main_v13))) (W6 m ρ c (Proc.devRef .tc main_arg4)) (Region1.rowVec (W6 m ρ c (Proc.devRef .tc main_v14))) = _
  rw [entry1_v9, entry1_v13, entry1_arg4, entry1_v14, rowVec1_cast, take128_eq _ _ hs, hidden_eq m ρ c hs]
  rfl

end Cert.KernelIdeal.KernelValue

end
-- ==== Proof.lean ====
/-
  The certificate of a two-layer graph network against its plain array reference.

  Each layer is  h' = max ((h + nbr h) · W + b) 0,  with `nbr h` the sum, per node, of the rows of `h` at the source
  nodes of its incoming edges. In the kernel program the neighbourhood sum is host arithmetic and the dense stage
  a kernel region over ten row blocks; the reference does both as whole-array operations.

  The two differ in one place: the kernel program takes rows with a range test on the source index and a fill word
  where it fails, the reference gathers with the index clamped. The statement's precondition says every source index
  is a row number (0 ≤ src < 50000); under it the test never fails, both programs gather the same rows, and the two
  results are the same function of the arguments (Bridge.outVal): the kernel's by reading its two regions' blocks
  back into whole arrays (Region0, Region1, KernelValue), the reference's by reading its operations at an index
  (RefLayers, Bridge). The sums over the shared axis of the products are the same sums on both sides; no law
  beyond that is used, and the finiteness of the float inputs is not.

  The three programs' frames are the generated ones; the kernel program is read at the ideal values unchanged,
  so there is nothing to preserve.
-/
import proofs.«403961_j1082331759084_1_alg».proof.Defs
import proofs.«403961_j1082331759084_1_alg».proof.Proof.Gen.Kernel
import proofs.«403961_j1082331759084_1_alg».proof.Proof.Gen.Kernel.Skeleton
import proofs.«403961_j1082331759084_1_alg».proof.Proof.Gen.Kernel.Launch
import proofs.«403961_j1082331759084_1_alg».proof.Proof.Gen.Kernel.Points
import proofs.«403961_j1082331759084_1_alg».proof.Proof.Gen.Kernel.Frame
import proofs.«403961_j1082331759084_1_alg».proof.Proof.Gen.KernelIdeal
import proofs.«403961_j1082331759084_1_alg».proof.Proof.Gen.KernelIdeal.Skeleton
import proofs.«403961_j1082331759084_1_alg».proof.Proof.Gen.KernelIdeal.Launch
import proofs.«403961_j1082331759084_1_alg».proof.Proof.Gen.KernelIdeal.Points
import proofs.«403961_j1082331759084_1_alg».proof.Proof.Gen.KernelIdeal.Frame
import proofs.«403961_j1082331759084_1_alg».proof.Proof.Gen.ReferenceIdeal
import proofs.«403961_j1082331759084_1_alg».proof.Proof.Gen.Pre_finite_inputs
import proofs.«403961_j1082331759084_1_alg».proof.Proof.Gen.ReferenceIdeal.Run
import proofs.«403961_j1082331759084_1_alg».proof.Proof.Gen.ReferenceIdeal.Read
import proofs.«403961_j1082331759084_1_alg».proof.Proof.IndexRange
import proofs.«403961_j1082331759084_1_alg».proof.Proof.Bridge
import proofs.«403961_j1082331759084_1_alg».proof.Proof.KernelRun
import proofs.«403961_j1082331759084_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network's function of the (agreeing) arguments in their result arrays. -/
theorem algebraic : Cert.algebraic_KernelIdeal_ReferenceIdeal := by
  intro m ρ m' ρ' hpre hagree
  have hs : ∀ (c : Dev Cert.KernelIdeal.nD) e,
      IntOp.cmpi .sge (Cert.KernelIdeal.Terms.src (m ((c.tc : Thread Cert.KernelIdeal.nD Cert.KernelIdeal.τ).loc Cert.KernelIdeal.main_arg0)) e) 0#32 = 1#1
      ∧ IntOp.cmpi .slt (Cert.KernelIdeal.Terms.src (m ((c.tc : Thread Cert.KernelIdeal.nD Cert.KernelIdeal.τ).loc Cert.KernelIdeal.main_arg0)) e) 50000#32 = 1#1 :=
    fun c e => Cert.Gin.src_of_pre _ _ _ _ _ _ (hpre c) _ _ e
  refine ⟨fun c => Cert.Proof.Bridge.outVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c (hs c)), (h c).2⟩)
      (Cert.KernelIdeal.Run.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v35_eq, (hagree c).1, (hagree c).2.1, (hagree c).2.2.1, (hagree c).2.2.2.1,
      (hagree c).2.2.2.2.1, (hagree c).2.2.2.2.2]
    exact Cert.Proof.Bridge.ref_value _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
